-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8x64x64 : Shape := ⟨4, ![512, 8, 64, 64]⟩
abbrev S256x32768 : Shape := ⟨2, ![256, 32768]⟩
abbrev S256 : Shape := ⟨1, ![256]⟩
abbrev S202000 : Shape := ⟨1, ![202000]⟩
abbrev S_ : Shape := ⟨0, ![]⟩

class Facts : Prop where
  bcast_S_S512x8x64x64 : S_.BroadcastsInDim S512x8x64x64 (![] : Fin 0 → Fin S512x8x64x64.rank)
  reducesTo_S512x8x64x64_S_d0_1_2_3 : S512x8x64x64.ReducesTo [0, 1, 2, 3] S_
  h_S_ : 0 < S_.numel
  bcast_S_S256x32768 : S_.BroadcastsInDim S256x32768 (![] : Fin 0 → Fin S256x32768.rank)
  reducesTo_S256x32768_S_d0_1 : S256x32768.ReducesTo [0, 1] S_
  bcast_S_S256 : S_.BroadcastsInDim S256 (![] : Fin 0 → Fin S256.rank)
  reducesTo_S256_S_d0 : S256.ReducesTo [0] S_
  bcast_S_S202000 : S_.BroadcastsInDim S202000 (![] : Fin 0 → Fin S202000.rank)
  reducesTo_S202000_S_d0 : S202000.ReducesTo [0] S_

variable [Facts]

def fn_part2 {F : FTy → Type} [FloatOps F] (main_v30 : IVec S_ 1) (main_v32 : IVec S202000 1) : IVec S_ 1 :=
  let main_c_13 : IVec S_ 1 := constantI S_ 1 1#1
  let main_v33 : IVec S_ 1 := (fun x v => Host.reduce IntOp.andi x v reducesTo_S202000_S_d0 h_S_) main_v32 main_c_13
  let main_v34 : IVec S_ 1 := andi main_v30 main_v33
  main_v34

def fn_part1 {F : FTy → Type} [FloatOps F] (main_arg4 : IVec S202000 32) (main_arg5 : IVec S202000 32) (main_v13 : IVec S_ 1) (main_v16 : IVec S202000 1) : IVec S_ 1 :=
  let main_c_5 : IVec S_ 1 := constantI S_ 1 1#1
  let main_v17 : IVec S_ 1 := (fun x v => Host.reduce IntOp.andi x v reducesTo_S202000_S_d0 h_S_) main_v16 main_c_5
  let main_v18 : IVec S_ 1 := andi main_v13 main_v17
  let main_c_6 : IVec S_ 32 := constantI S_ 32 0#32
  let main_v19 : IVec S202000 32 := broadcastInDim S202000 ![] bcast_S_S202000 main_c_6
  let main_v20 : IVec S202000 1 := cmpi .sge main_arg4 main_v19
  let main_c_7 : IVec S_ 1 := constantI S_ 1 1#1
  let main_v21 : IVec S_ 1 := (fun x v => Host.reduce IntOp.andi x v reducesTo_S202000_S_d0 h_S_) main_v20 main_c_7
  let main_v22 : IVec S_ 1 := andi main_v18 main_v21
  let main_c_8 : IVec S_ 32 := constantI S_ 32 32768#32
  let main_v23 : IVec S202000 32 := broadcastInDim S202000 ![] bcast_S_S202000 main_c_8
  let main_v24 : IVec S202000 1 := cmpi .slt main_arg4 main_v23
  let main_c_9 : IVec S_ 1 := constantI S_ 1 1#1
  let main_v25 : IVec S_ 1 := (fun x v => Host.reduce IntOp.andi x v reducesTo_S202000_S_d0 h_S_) main_v24 main_c_9
  let main_v26 : IVec S_ 1 := andi main_v22 main_v25
  let main_c_10 : IVec S_ 32 := constantI S_ 32 0#32
  let main_v27 : IVec S202000 32 := broadcastInDim S202000 ![] bcast_S_S202000 main_c_10
  let main_v28 : IVec S202000 1 := cmpi .sge main_arg5 main_v27
  let main_c_11 : IVec S_ 1 := constantI S_ 1 1#1
  let main_v29 : IVec S_ 1 := (fun x v => Host.reduce IntOp.andi x v reducesTo_S202000_S_d0 h_S_) main_v28 main_c_11
  let main_v30 : IVec S_ 1 := andi main_v26 main_v29
  let main_c_12 : IVec S_ 32 := constantI S_ 32 32768#32
  let main_v31 : IVec S202000 32 := broadcastInDim S202000 ![] bcast_S_S202000 main_c_12
  let main_v32 : IVec S202000 1 := cmpi .slt main_arg5 main_v31
  fn_part2 (F := F) main_v30 main_v32

def fn {F : FTy → Type} [FloatOps F] (main_arg0 : FVec F S512x8x64x64 .f32) (main_arg1 : FVec F S256x32768 .f32) (main_arg2 : FVec F S256 .f32) (main_arg3 : FVec F S202000 .f32) (main_arg4 : IVec S202000 32) (main_arg5 : IVec S202000 32) : IVec S_ 1 :=
  let main_v0 : FVec F S512x8x64x64 .f32 := Host.absf main_arg0
  let main_cst : FVec F S_ .f32 := constant S_ .f32 0x7F800000#32
  let main_v1 : FVec F S512x8x64x64 .f32 := broadcastInDim S512x8x64x64 ![] bcast_S_S512x8x64x64 main_cst
  let main_v2 : IVec S512x8x64x64 1 := cmpf .olt main_v0 main_v1
  let main_c : IVec S_ 1 := constantI S_ 1 1#1
  let main_v3 : IVec S_ 1 := (fun x v => Host.reduce IntOp.andi x v reducesTo_S512x8x64x64_S_d0_1_2_3 h_S_) main_v2 main_c
  let main_v4 : FVec F S256x32768 .f32 := Host.absf main_arg1
  let main_cst_0 : FVec F S_ .f32 := constant S_ .f32 0x7F800000#32
  let main_v5 : FVec F S256x32768 .f32 := broadcastInDim S256x32768 ![] bcast_S_S256x32768 main_cst_0
  let main_v6 : IVec S256x32768 1 := cmpf .olt main_v4 main_v5
  let main_c_1 : IVec S_ 1 := constantI S_ 1 1#1
  let main_v7 : IVec S_ 1 := (fun x v => Host.reduce IntOp.andi x v reducesTo_S256x32768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S202000 .f32 := Host.absf main_arg3
  let main_cst_4 : FVec F S_ .f32 := constant S_ .f32 0x7F800000#32
  let main_v15 : FVec F S202000 .f32 := broadcastInDim S202000 ![] bcast_S_S202000 main_cst_4
  let main_v16 : IVec S202000 1 := cmpf .olt main_v14 main_v15
  fn_part1 (F := F) main_arg4 main_arg5 main_v13 main_v16
-- ==== Kernel.lean ====
abbrev S512x8x64x64 : Shape := ⟨4, ![512, 8, 64, 64]⟩
abbrev S256x32768 : Shape := ⟨2, ![256, 32768]⟩
abbrev S256 : Shape := ⟨1, ![256]⟩
abbrev S202000 : Shape := ⟨1, ![202000]⟩
abbrev S512x32768 : Shape := ⟨2, ![512, 32768]⟩
abbrev S32768x256 : Shape := ⟨2, ![32768, 256]⟩
abbrev S_ : Shape := ⟨0, ![]⟩
abbrev S202000x1 : Shape := ⟨2, ![202000, 1]⟩
abbrev S202000x256 : Shape := ⟨2, ![202000, 256]⟩
abbrev S1x256 : Shape := ⟨2, ![1, 256]⟩
abbrev S512x256 : Shape := ⟨2, ![512, 256]⟩
abbrev S256x8192 : Shape := ⟨2, ![256, 8192]⟩
abbrev S8192x256 : Shape := ⟨2, ![8192, 256]⟩
abbrev S256x256 : Shape := ⟨2, ![256, 256]⟩

abbrev nBuf : Space → Nat
  | .hbm => 27
  | .vmem => 7
  | .smem => 0
  | _ => 0

abbrev bufTy : (tb : Table) → Fin (tcTables nBuf tb) → BufTy
  | .hbm, ⟨0, _⟩ => ⟨S512x8x64x64, .f32⟩
  | .hbm, ⟨1, _⟩ => ⟨S256x32768, .f32⟩
  | .hbm, ⟨2, _⟩ => ⟨S256, .f32⟩
  | .hbm, ⟨3, _⟩ => ⟨S202000, .f32⟩
  | .hbm, ⟨4, _⟩ => ⟨S202000, .i32⟩
  | .hbm, ⟨5, _⟩ => ⟨S202000, .i32⟩
  | .hbm, ⟨6, _⟩ => ⟨S512x32768, .f32⟩
  | .hbm, ⟨7, _⟩ => ⟨S32768x256, .f32⟩
  | .hbm, ⟨8, _⟩ => ⟨S_, .i32⟩
  | .hbm, ⟨9, _⟩ => ⟨S202000, .i32⟩
  | .hbm, ⟨10, _⟩ => ⟨S202000, .i1⟩
  | .hbm, ⟨11, _⟩ => ⟨S_, .i32⟩
  | .hbm, ⟨12, _⟩ => ⟨S202000, .i32⟩
  | .hbm, ⟨13, _⟩ => ⟨S202000, .i32⟩
  | .hbm, ⟨14, _⟩ => ⟨S202000, .i32⟩
  | .hbm, ⟨15, _⟩ => ⟨S202000x1, .i32⟩
  | .hbm, ⟨16, _⟩ => ⟨S202000x256, .f32⟩
  | .hbm, ⟨17, _⟩ => ⟨S202000x1, .f32⟩
  | .hbm, ⟨18, _⟩ => ⟨S202000x256, .f32⟩
  | .hbm, ⟨19, _⟩ => ⟨S202000x256, .f32⟩
  | .hbm, ⟨20, _⟩ => ⟨S_, .f32⟩
  | .hbm, ⟨21, _⟩ => ⟨S32768x256, .f32⟩
  | .hbm, ⟨22, _⟩ => ⟨S202000x1, .i32⟩
  | .hbm, ⟨23, _⟩ => ⟨S32768x256, .f32⟩
  | .hbm, ⟨24, _⟩ => ⟨S32768x256, .bf16⟩
  | .hbm, ⟨25, _⟩ => ⟨S1x256, .f32⟩
  | .hbm, ⟨26, _⟩ => ⟨S512x256, .f32⟩
  | .local _ .vmem, ⟨0, _⟩ => ⟨S256x8192, .f32⟩
  | .local _ .vmem, ⟨1, _⟩ => ⟨S256x8192, .f32⟩
  | .local _ .vmem, ⟨2, _⟩ => ⟨S8192x256, .bf16⟩
  | .local _ .vmem, ⟨3, _⟩ => ⟨S8192x256, .bf16⟩
  | .local _ .vmem, ⟨4, _⟩ => ⟨S1x256, .f32⟩
  | .local _ .vmem, ⟨5, _⟩ => ⟨S256x256, .f32⟩
  | .local _ .vmem, ⟨6, _⟩ => ⟨S256x256, .f32⟩
  | _, _ => ⟨S512x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_c_0 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512x8x64x64_S512x32768 : S512x8x64x64.ShapeCasts S512x32768
  transposes_S256x32768_S32768x256_1_0 : S256x32768.Transposes [1, 0] S32768x256
  bcast_S_S202000 : S_.BroadcastsInDim S202000 (![] : Fin 0 → Fin S202000.rank)
  bcast_S202000_S202000x1_0 : S202000.BroadcastsInDim S202000x1 (![0] : Fin 1 → Fin S202000x1.rank)
  bcast_S202000x1_S202000x256_0_1 : S202000x1.BroadcastsInDim S202000x256 (![0, 1] : Fin 2 → Fin S202000x256.rank)
  bcast_S_S32768x256 : S_.BroadcastsInDim S32768x256 (![] : Fin 0 → Fin S32768x256.rank)
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  gather_S32768x256_S202000x1_S202000x256_1_0_n_n_0_1_1256_wf : GatherDims.WF S32768x256 S202000x1 S202000x256 [1] [0] [] [0] [] 1 ![1, 256]
  scatter_S32768x256_S202000x1_S202000x256_1_0_0_1_wf : ScatterDims.WF S32768x256 S202000x1 S202000x256 [1] [0] [0] 1
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S512x32768.size a
  hwx0_0 : ∀ i : grid0.Coords, EltTy.bits .f32 = 32 ∨ (Rect.block (s := S512x32768) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S32768x256.size a
  hwx0_1 : ∀ i : grid0.Coords, EltTy.bits .bf16 = 32 ∨ (Rect.block (s := S32768x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S512x256.size a
  hwx0_3 : ∀ i : grid0.Coords, EltTy.bits .f32 = 32 ∨ (Rect.block (s := S512x256) S256x256.size (cc0_transform_3 i) (hinb0_3 i)).WholeWords (EltTy.packing .f32)

variable [Facts₀]

def gather_S32768x256_S202000x1_S202000x256_1_0_n_n_0_1_1256 : GatherDims S32768x256 S202000x1 S202000x256 where
  offsetDims := [1]
  collapsedSliceDims := [0]
  operandBatchingDims := []
  startIndicesBatchingDims := []
  startIndexMap := [0]
  indexVectorDim := 1
  sliceSizes := ![1, 256]
  wf := gather_S32768x256_S202000x1_S202000x256_1_0_n_n_0_1_1256_wf
def scatter_S32768x256_S202000x1_S202000x256_1_0_0_1 : ScatterDims S32768x256 S202000x1 S202000x256 where
  updateWindowDims := [1]
  insertedWindowDims := [0]
  scatterDimsToOperandDims := [0]
  indexVectorDim := 1
  wf := scatter_S32768x256_S202000x1_S202000x256_1_0_0_1_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x8x64x64 : Shape := ⟨4, ![512, 8, 64, 64]⟩
abbrev S256x32768 : Shape := ⟨2, ![256, 32768]⟩
abbrev S256 : Shape := ⟨1, ![256]⟩
abbrev S202000 : Shape := ⟨1, ![202000]⟩
abbrev S512x32768 : Shape := ⟨2, ![512, 32768]⟩
abbrev S_ : Shape := ⟨0, ![]⟩
abbrev S202000x1 : Shape := ⟨2, ![202000, 1]⟩
abbrev S512x202000 : Shape := ⟨2, ![512, 202000]⟩
abbrev S1x202000 : Shape := ⟨2, ![1, 202000]⟩
abbrev S202000x512 : Shape := ⟨2, ![202000, 512]⟩
abbrev S32768x512 : Shape := ⟨2, ![32768, 512]⟩
abbrev S32768x256 : Shape := ⟨2, ![32768, 256]⟩
abbrev S512x256 : Shape := ⟨2, ![512, 256]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S512x8x64x64, .f32⟩
  | .hbm, ⟨1, _⟩ => ⟨S256x32768, .f32⟩
  | .hbm, ⟨2, _⟩ => ⟨S256, .f32⟩
  | .hbm, ⟨3, _⟩ => ⟨S202000, .f32⟩
  | .hbm, ⟨4, _⟩ => ⟨S202000, .i32⟩
  | .hbm, ⟨5, _⟩ => ⟨S202000, .i32⟩
  | .hbm, ⟨6, _⟩ => ⟨S512x32768, .f32⟩
  | .hbm, ⟨7, _⟩ => ⟨S_, .i32⟩
  | .hbm, ⟨8, _⟩ => ⟨S202000, .i32⟩
  | .hbm, ⟨9, _⟩ => ⟨S202000, .i1⟩
  | .hbm, ⟨10, _⟩ => ⟨S_, .i32⟩
  | .hbm, ⟨11, _⟩ => ⟨S202000, .i32⟩
  | .hbm, ⟨12, _⟩ => ⟨S202000, .i32⟩
  | .hbm, ⟨13, _⟩ => ⟨S202000, .i32⟩
  | .hbm, ⟨14, _⟩ => ⟨S202000x1, .i32⟩
  | .hbm, ⟨15, _⟩ => ⟨S512x202000, .f32⟩
  | .hbm, ⟨16, _⟩ => ⟨S1x202000, .f32⟩
  | .hbm, ⟨17, _⟩ => ⟨S512x202000, .f32⟩
  | .hbm, ⟨18, _⟩ => ⟨S512x202000, .f32⟩
  | .hbm, ⟨19, _⟩ => ⟨S202000x512, .f32⟩
  | .hbm, ⟨20, _⟩ => ⟨S_, .f32⟩
  | .hbm, ⟨21, _⟩ => ⟨S32768x512, .f32⟩
  | .hbm, ⟨22, _⟩ => ⟨S202000x1, .i32⟩
  | .hbm, ⟨23, _⟩ => ⟨S32768x512, .f32⟩
  | .hbm, ⟨24, _⟩ => ⟨S512x32768, .f32⟩
  | .hbm, ⟨25, _⟩ => ⟨S32768x256, .f32⟩
  | .hbm, ⟨26, _⟩ => ⟨S512x256, .f32⟩
  | .hbm, ⟨27, _⟩ => ⟨S1x256, .f32⟩
  | .hbm, ⟨28, _⟩ => ⟨S512x256, .f32⟩
  | .hbm, ⟨29, _⟩ => ⟨S512x256, .f32⟩
  | _, _ => ⟨S512x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S512x8x64x64_S512x32768 : S512x8x64x64.ShapeCasts S512x32768
  bcast_S_S202000 : S_.BroadcastsInDim S202000 (![] : Fin 0 → Fin S202000.rank)
  bcast_S202000_S202000x1_0 : S202000.BroadcastsInDim S202000x1 (![0] : Fin 1 → Fin S202000x1.rank)
  bcast_S202000_S1x202000_1 : S202000.BroadcastsInDim S1x202000 (![1] : Fin 1 → Fin S1x202000.rank)
  bcast_S1x202000_S512x202000_0_1 : S1x202000.BroadcastsInDim S512x202000 (![0, 1] : Fin 2 → Fin S512x202000.rank)
  transposes_S512x202000_S202000x512_1_0 : S512x202000.Transposes [1, 0] S202000x512
  bcast_S_S32768x512 : S_.BroadcastsInDim S32768x512 (![] : Fin 0 → Fin S32768x512.rank)
  transposes_S32768x512_S512x32768_1_0 : S32768x512.Transposes [1, 0] S512x32768
  transposes_S256x32768_S32768x256_1_0 : S256x32768.Transposes [1, 0] S32768x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  gather_S512x32768_S202000x1_S512x202000_0_1_n_n_1_1_5121_wf : GatherDims.WF S512x32768 S202000x1 S512x202000 [0] [1] [] [1] [] 1 ![512, 1]
  scatter_S32768x512_S202000x1_S202000x512_1_0_0_1_wf : ScatterDims.WF S32768x512 S202000x1 S202000x512 [1] [0] [0] 1
  dot_S512x32768_S32768x256_S512x256_1_0_0_1_n_n_wf : DotDims.WF S512x32768 S32768x256 S512x256 [1] [0] [0] [1] [] []

variable [Facts₀]

def gather_S512x32768_S202000x1_S512x202000_0_1_n_n_1_1_5121 : GatherDims S512x32768 S202000x1 S512x202000 where
  offsetDims := [0]
  collapsedSliceDims := [1]
  operandBatchingDims := []
  startIndicesBatchingDims := []
  startIndexMap := [1]
  indexVectorDim := 1
  sliceSizes := ![512, 1]
  wf := gather_S512x32768_S202000x1_S512x202000_0_1_n_n_1_1_5121_wf
def scatter_S32768x512_S202000x1_S202000x512_1_0_0_1 : ScatterDims S32768x512 S202000x1 S202000x512 where
  updateWindowDims := [1]
  insertedWindowDims := [0]
  scatterDimsToOperandDims := [0]
  indexVectorDim := 1
  wf := scatter_S32768x512_S202000x1_S202000x512_1_0_0_1_wf
def dot_S512x32768_S32768x256_S512x256_1_0_0_1_n_n : DotDims S512x32768 S32768x256 S512x256 where
  lhsContracting := [1]
  rhsContracting := [0]
  lhsNonContracting := [0]
  rhsNonContracting := [1]
  lhsBatch := []
  rhsBatch := []
  wf := dot_S512x32768_S32768x256_S512x256_1_0_0_1_n_n_wf

class Facts : Prop extends Facts₀ where

variable [Facts]
-- ==== Proof.KernelPayload.lean ====
/-
  THE BODY'S ARITHMETIC AT AN INDEX. One grid point of the dense product holds a [256 × 8192] stretch of batch rows, an
  [8192 × 256] stretch of the folded matrix and the [256 × 256] output block it accumulates into. At the ideal values a
  change of float format is the identity and the matrix unit's product into a zero accumulator is the plain sum over the
  8192 contracted nodes, so the three values the body stores are: zero; the block plus that sum; the block plus the bias
  row.
-/
import proofs.«409804_j63350767616783_3_alg».proof.Proof.Gen.KernelIdeal.Skeleton
import Idealize.ShloMosaic.Lib.ValueIdx
import Idealize.ShloMosaic.Lib.Pipeline.Value
import Idealize.ShloMosaic.PureOps.Ideal.Laws

open scoped BigOperators

noncomputable section

namespace Cert.KernelIdeal.Payload

open Cert.KernelIdeal Cert.KernelIdeal.Gen Idealize.ShloMosaic Idealize.ShloMosaic.ValueIdx

/-! ## The contraction's operand indices, axis by axis -/

theorem lhs_axis0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_axis1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_axis0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_axis1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- The product into a zero accumulator, at (p, o): Σ over the 8192 contracted nodes q of left (p, q) times right (q, o). -/
theorem product_at (l : S256x8192.Idx → EReal) (r : S8192x256.Idx → EReal) (p o : Fin 256) :
    (matmul dot_S256x8192_S8192x256_S256x256_1_0_0_1_n_n none (φ₁ := .bf16) (φ₂ := .bf16) (F := Ideal) l r (constant S256x256 .f32 0x00000000#32)) (ix2 p o)
      = ∑ q : Fin 8192, l (ix2 p q) * r (ix2 q o) := by
  simp only [matmul]
  rw [Ideal.matmul_constant_zero_apply, ← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 p o) ((contrEquiv1 dot_S256x8192_S8192x256_S256x256_1_0_0_1_n_n 8192 rfl rfl).symm k) = ix2 p k := funext fun a => Fin.ext (by
    match a with
    | ⟨0, _⟩ => exact lhs_axis0 _ _
    | ⟨1, _⟩ => exact (lhs_axis1 _ _).trans hk)
  have er : dot_S256x8192_S8192x256_S256x256_1_0_0_1_n_n.rhsIdx (ix2 p o) ((contrEquiv1 dot_S256x8192_S8192x256_S256x256_1_0_0_1_n_n 8192 rfl rfl).symm k) = ix2 k o := funext fun a => Fin.ext (by
    match a with
    | ⟨0, _⟩ => exact (rhs_axis0 _ _).trans hk
    | ⟨1, _⟩ => exact rhs_axis1 _ _)
  rw [el, er]

/-! ## The three stored values -/

/-- The reset stores zero. -/
theorem pay1_at (p o : Fin 256) : (k0_pay1 (F := Ideal) : S256x256.Idx → EReal) (ix2 p o) = 0 := by
  unfold k0_pay1
  show Ideal.ofBits .f32 0x00000000#32 = 0
  exact Ideal.ofBits_zero_f32

/-- The accumulation stores the block plus this point's product. -/
theorem pay2_at (x0 : S256x8192.Idx → EReal) (acc : S256x256.Idx → EReal) (x1 : S8192x256.Idx → EReal) (p o : Fin 256) :
    (k0_pay2 (F := Ideal) x0 acc x1 : S256x256.Idx → EReal) (ix2 p o) = acc (ix2 p o) + ∑ q : Fin 8192, x0 (ix2 p q) * x1 (ix2 q o) := by
  unfold k0_pay2
  simp only [shapeCast_self]
  rw [addf_apply, product_at]
  rfl

/-- The last point adds the bias row to every row of the block. -/
theorem pay3_at (acc : S256x256.Idx → EReal) (x2 : S1x256.Idx → EReal) (p o : Fin 256) :
    (k0_pay3 (F := Ideal) acc x2 : S256x256.Idx → EReal) (ix2 p o) = acc (ix2 p o) + x2 (ix2 0 o) := by
  unfold k0_pay3
  simp only [shapeCast_self]
  rw [addf_apply, broadcastTo_apply x2 broadcasts_S1x256_S256x256 (ix2 p o) (ix2 0 o) (fun a => by
    match a with
    | ⟨0, _⟩ => rfl
    | ⟨1, _⟩ => rfl)]

end Cert.KernelIdeal.Payload

end
-- ==== Proof.Spec.lean ====
/-
  THE LAYER AS TWO FORMULAS. A sparse matrix in coordinate form — entry `e` has value `v e` at (row e, col e), duplicates
  adding up — is applied to each batch row of `X`, and the result goes through a dense layer with weights `Wt` (node by
  output) and bias `β`. One side folds the sparse matrix into the weights first and then multiplies the batch by the
  folded matrix, the node axis cut into four stretches of 8192 summed left to right (`kernelForm`); the other spreads
  the batch through the sparse matrix first and then applies the weights (`referenceForm`). Both are
  Σ_e X b (col e) · v e · Wt (row e) o + β o once every factor is a real number.
-/
import Idealize.ShloMosaic.PureOps.Ideal
import Idealize.ShloMosaic.Lib.ValueIdx

open scoped BigOperators

noncomputable section

namespace Cert.Spmm

open Idealize.ShloMosaic Idealize.ShloMosaic.ValueIdx

/-! ## The arguments read by coordinates -/

/-- Node `c` of the flattened 8 × 64 × 64 grid, in batch row `b`, as an index of the [512, 8, 64, 64] input. -/
def node (b : Fin 512) (c : Fin 32768) : (⟨4, ![512, 8, 64, 64]⟩ : Shape).Idx :=
  ix4 b ⟨c.val / 4096, by have := c.isLt; omega⟩ ⟨c.val / 64 % 64, by omega⟩ ⟨c.val % 64, by omega⟩

/-- The node an index word names: the word read signed, kept inside [0, 32767]. For a word already in that range this
    is the word's value. -/
def pos (w : BitVec 32) : Fin 32768 := ⟨min w.toInt.toNat 32767, by omega⟩

/-- The batch, flattened: row `b`, node `c`. -/
def X (x0 : (⟨4, ![512, 8, 64, 64]⟩ : Shape).Idx → EReal) (b : Fin 512) (c : Fin 32768) : EReal := x0 (node b c)
/-- The dense weights, node by output (the [256, 32768] weight matrix transposed). -/
def Wt (x1 : (⟨2, ![256, 32768]⟩ : Shape).Idx → EReal) (n : Fin 32768) (o : Fin 256) : EReal := x1 (ix2 o n)
/-- The bias of output `o`. -/
def bias (x2 : (⟨1, ![256]⟩ : Shape).Idx → EReal) (o : Fin 256) : EReal := x2 (ix1 o)
/-- The value of sparse entry `e`. -/
def vals (x3 : (⟨1, ![202000]⟩ : Shape).Idx → EReal) (e : Fin 202000) : EReal := x3 (ix1 e)
/-- The node sparse entry `e`'s index word names. -/
def nodeOf (x : (⟨1, ![202000]⟩ : Shape).Idx → BitVec 32) (e : Fin 202000) : Fin 32768 := pos (x (ix1 e))

/-! ## The two formulas -/

section
variable (X : Fin 512 → Fin 32768 → EReal) (Wt : Fin 32768 → Fin 256 → EReal) (β : Fin 256 → EReal)
  (v : Fin 202000 → EReal) (row col : Fin 202000 → Fin 32768)

/-- The sparse matrix folded into the weights: node `c`, output `o` gets Σ over the entries in column `c` of the weight
    of the entry's row times the entry's value. -/
def folded (c : Fin 32768) (o : Fin 256) : EReal :=
  ∑ e ∈ Finset.univ.filter (fun e : Fin 202000 => col e = c), Wt (row e) o * v e

/-- Node `q` of the `j`-th stretch of 8192 nodes. -/
def blk (j : Fin 4) (q : Fin 8192) : Fin 32768 := ⟨j.val * 8192 + q.val, by omega⟩

/-- The batch row times the folded matrix over one stretch of nodes. -/
def part (j : Fin 4) (b : Fin 512) (o : Fin 256) : EReal :=
  ∑ q : Fin 8192, X b (blk j q) * folded Wt v row col (blk j q) o

/-- Fold first, then multiply: the four stretches added left to right, then the bias. -/
def kernelForm (b : Fin 512) (o : Fin 256) : EReal :=
  (((part X Wt v row col 0 b o + part X Wt v row col 1 b o) + part X Wt v row col 2 b o) + part X Wt v row col 3 b o) + β o

/-- The batch spread through the sparse matrix: row `b`, node `n` gets Σ over the entries in row `n` of the batch at the
    entry's column times the entry's value. -/
def spread (b : Fin 512) (n : Fin 32768) : EReal :=
  ∑ e ∈ Finset.univ.filter (fun e : Fin 202000 => row e = n), X b (col e) * v e

/-- Spread first, then the dense layer. -/
def referenceForm (b : Fin 512) (o : Fin 256) : EReal :=
  (∑ n : Fin 32768, spread X v row col b n * Wt n o) + β o

end

end Cert.Spmm

end
-- ==== Proof.KernelFold.lean ====
/-
  THE DENSE PRODUCT, BLOCK BY BLOCK. The grid is 2 × 4: point t works on batch rows 256·(t / 4) … and on nodes
  8192·(t mod 4) …. Over the four points of one row block the output block is reset to zero, gains one stretch's product
  at each point, and gains the bias row at the last. So the result at (b, o) is the four stretch sums over the nodes,
  added left to right from zero, plus the bias of output o — each factor read from the array the region stages.
-/
import proofs.«409804_j63350767616783_3_alg».proof.Proof.Gen.KernelIdeal.Value
import proofs.«409804_j63350767616783_3_alg».proof.Proof.KernelPayload
import proofs.«409804_j63350767616783_3_alg».proof.Proof.Spec

open scoped BigOperators

noncomputable section

namespace Cert.KernelIdeal.Fold

open Cert.KernelIdeal Cert.KernelIdeal.Gen Cert.KernelIdeal.Value Idealize.ShloMosaic Idealize.ShloMosaic.TcCoe
  Idealize.ShloMosaic.ValueIdx Idealize.SL.Sem

variable (m : (ℓ : Loc nD τ sig) → Buf (Elt Ideal) ℓ)

/-! ## The staged arrays and their blocks, at their literal types -/

/-- The flattened batch as the region finds it. -/
abbrev batchArr (c : Dev nD) : S512x32768.Idx → EReal := V m c main_v0
/-- The folded matrix as the region finds it. -/
abbrev foldedArr (c : Dev nD) : S32768x256.Idx → EReal := V m c main_v1
/-- The bias row as the region finds it. -/
abbrev biasArr (c : Dev nD) : S1x256.Idx → EReal := V m c main_v2

/-- Point t's stretch of batch rows. -/
abbrev batchBlk (c : Dev nD) (t : Fin cfg0.N) : S256x8192.Idx → EReal := iblk m c 0 t
/-- Point t's stretch of the folded matrix. -/
abbrev foldedBlk (c : Dev nD) (t : Fin cfg0.N) : S8192x256.Idx → EReal := iblk m c 1 t
/-- The bias row, the same at every point. -/
abbrev biasBlk (c : Dev nD) (t : Fin cfg0.N) : S1x256.Idx → EReal := iblk m c 2 t

/-! ## Which block a point reads -/

theorem batch_index : ∀ t : Fin cfg0.N, win0_0.index t (0 : Fin 2) = t.val / 4 ∧ win0_0.index t (1 : Fin 2) = t.val % 4 :=
  (by decide +kernel : ∀ t : Fin grid0.N, _)
theorem folded_index : ∀ t : Fin cfg0.N, win0_1.index t (0 : Fin 2) = t.val % 4 ∧ win0_1.index t (1 : Fin 2) = 0 :=
  (by decide +kernel : ∀ t : Fin grid0.N, _)
theorem bias_index : ∀ t : Fin cfg0.N, win0_2.index t (0 : Fin 2) = 0 ∧ win0_2.index t (1 : Fin 2) = 0 :=
  (by decide +kernel : ∀ t : Fin grid0.N, _)

/-- Row p, node q of point t's batch stretch is row 256·(t / 4) + p, node 8192·(t mod 4) + q of the batch. -/
theorem batchBlk_at (c : Dev nD) (t : Fin cfg0.N) (p : Fin 256) (q : Fin 8192) (b : Fin 512) (n : Fin 32768)
    (hb : b.val = t.val / 4 * 256 + p.val) (hn : n.val = t.val % 4 * 8192 + q.val) :
    batchBlk m c t (ix2 p q) = batchArr m c (ix2 b n) := by
  obtain ⟨e0, e1⟩ := batch_index t
  show V m c main_v0 (((cfg0.win 0).blk t).view.emb (ix2 p q)) = V m c main_v0 (ix2 b n)
  refine congrArg _ (funext fun a => Fin.ext ?_)
  match a with
  | ⟨0, _⟩ => show win0_0.index t (0 : Fin 2) * 256 + 1 * p.val = b.val; rw [e0]; omega
  | ⟨1, _⟩ => show win0_0.index t (1 : Fin 2) * 8192 + 1 * q.val = n.val; rw [e1]; omega

/-- Node q, output o of point t's stretch of the folded matrix is node 8192·(t mod 4) + q, output o. -/
theorem foldedBlk_at (c : Dev nD) (t : Fin cfg0.N) (q : Fin 8192) (o : Fin 256) (n : Fin 32768)
    (hn : n.val = t.val % 4 * 8192 + q.val) :
    foldedBlk m c t (ix2 q o) = foldedArr m c (ix2 n o) := by
  obtain ⟨e0, e1⟩ := folded_index t
  show V m c main_v1 (((cfg0.win 1).blk t).view.emb (ix2 q o)) = V m c main_v1 (ix2 n o)
  refine congrArg _ (funext fun a => Fin.ext ?_)
  match a with
  | ⟨0, _⟩ => show win0_1.index t (0 : Fin 2) * 8192 + 1 * q.val = n.val; rw [e0]; omega
  | ⟨1, _⟩ => show win0_1.index t (1 : Fin 2) * 256 + 1 * o.val = o.val; rw [e1]; omega

/-- Every point's bias block is the bias row. -/
theorem biasBlk_at (c : Dev nD) (t : Fin cfg0.N) (o : Fin 256) :
    biasBlk m c t (ix2 0 o) = biasArr m c (ix2 0 o) := by
  obtain ⟨e0, e1⟩ := bias_index t
  show V m c main_v2 (((cfg0.win 2).blk t).view.emb (ix2 0 o)) = V m c main_v2 (ix2 0 o)
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * o.val = o.val; rw [e1]; omega

/-! ## One row block's four points -/

/-- At the two middle points of a run the step accumulates the point's product. -/
theorem step_mid (c : Dev nD) (n : ℕ) (h : n < cfg0.N) (acc : S256x256.Idx → EReal) (hn : n % 4 = 1 ∨ n % 4 = 2) :
    step3 m c n h acc = k0_pay2 (F := Ideal) (batchBlk m c ⟨n, h⟩) acc (foldedBlk m c ⟨n, h⟩) := by
  unfold step3
  rw [if_pos ⟨by omega, by omega⟩]

/-- At the last point of a run the step accumulates the point's product and then adds the bias row. -/
theorem step_last (c : Dev nD) (n : ℕ) (h : n < cfg0.N) (acc : S256x256.Idx → EReal) (hn : n % 4 = 3) :
    step3 m c n h acc = k0_pay3 (F := Ideal) (k0_pay2 (F := Ideal) (batchBlk m c ⟨n, h⟩) acc (foldedBlk m c ⟨n, h⟩)) (biasBlk m c ⟨n, h⟩) := by
  unfold step3
  rw [if_neg (by omega), if_pos ⟨by omega, by omega⟩]

/-- The stretch sum of point t at (p, o): Σ over its 8192 nodes of batch times folded matrix. -/
def stretch (c : Dev nD) (t : Fin cfg0.N) (p o : Fin 256) : EReal :=
  ∑ q : Fin 8192, batchBlk m c t (ix2 p q) * foldedBlk m c t (ix2 q o)

/-- What row block r's run leaves at (p, o): from zero, the four stretch sums left to right, then the bias. -/
theorem run_at (c : Dev nD) (r : ℕ) (h : 4 * r + 3 < cfg0.N) (p o : Fin 256) :
    (Pipeline.accAt (reset3 m c) (step3 m c) (4 * r) 3 h : S256x256.Idx → EReal) (ix2 p o)
      = ((((0 + stretch m c ⟨4 * r, by omega⟩ p o) + stretch m c ⟨4 * r + 1, by omega⟩ p o)
            + stretch m c ⟨4 * r + 2, by omega⟩ p o) + stretch m c ⟨4 * r + 3, h⟩ p o)
          + biasBlk m c ⟨4 * r + 3, h⟩ (ix2 0 o) := by
  rw [Pipeline.accAt_succ, step_last m c _ _ _ (by omega), Pipeline.accAt_succ, step_mid m c _ _ _ (by omega),
    Pipeline.accAt_succ, step_mid m c _ _ _ (by omega), Pipeline.accAt_zero]
  unfold reset3
  rw [Payload.pay3_at, Payload.pay2_at, Payload.pay2_at, Payload.pay2_at, Payload.pay2_at, Payload.pay1_at]
  rfl

/-! ## The result at (b, o), over the staged arrays -/

/-- Point t of row block b / 256, stretch j: its stretch sum at (b mod 256, o) runs over the nodes blk j q of batch row b. -/
theorem stretch_eq (c : Dev nD) (b : Fin 512) (o : Fin 256) (j : Fin 4) (t : Fin cfg0.N)
    (ht : t.val = 4 * (b.val / 256) + j.val) :
    stretch m c t ⟨b.val % 256, Nat.mod_lt _ (by decide)⟩ o
      = ∑ q : Fin 8192, batchArr m c (ix2 b (Cert.Spmm.blk j q)) * foldedArr m c (ix2 (Cert.Spmm.blk j q) o) := by
  have hj := j.isLt
  unfold stretch
  refine Finset.sum_congr rfl fun q _ => ?_
  have hn : (Cert.Spmm.blk j q).val = t.val % 4 * 8192 + q.val := by
    show j.val * 8192 + q.val = t.val % 4 * 8192 + q.val
    rw [ht]; omega
  rw [batchBlk_at m c t _ q b (Cert.Spmm.blk j q)
      (by show b.val = t.val / 4 * 256 + b.val % 256; rw [ht]; omega) hn,
    foldedBlk_at m c t q o (Cert.Spmm.blk j q) hn]

/-- The run that fills (b, o) is row block b / 256's, and (b, o) sits at (b mod 256, o) in its block. -/
theorem G3_at (c : Dev nD) (b : Fin 512) (o : Fin 256) (h : 4 * (b.val / 256) + 3 < cfg0.N) :
    (G3 m c : S512x256.Idx → EReal) (ix2 b o)
      = (Pipeline.accAt (reset3 m c) (step3 m c) (4 * (b.val / 256)) 3 h : S256x256.Idx → EReal)
          (ix2 ⟨b.val % 256, Nat.mod_lt _ (by decide)⟩ o) := by
  have ho := o.isLt
  have hrun : run3Of (ix2 b o : S512x256.Idx) = b.val / 256 := by
    show 1 * (b.val / 256 - 0) + 1 * (o.val / 256 - 0) = b.val / 256
    omega
  have hloc : loc3Of (ix2 b o : S512x256.Idx) = ix2 ⟨b.val % 256, Nat.mod_lt _ (by decide)⟩ o := by
    funext a
    match a with
    | ⟨0, _⟩ => rfl
    | ⟨1, _⟩ => exact Fin.ext (Nat.mod_eq_of_lt ho)
  have e : ∀ (r r' : ℕ) (g : 4 * r + 3 < cfg0.N) (g' : 4 * r' + 3 < cfg0.N), r = r' →
      Pipeline.accAt (reset3 m c) (step3 m c) (4 * r) 3 g = Pipeline.accAt (reset3 m c) (step3 m c) (4 * r') 3 g' := by
    intro r r' g g' hr; subst hr; rfl
  show (if h' : 4 * run3Of (ix2 b o : S512x256.Idx) + 3 < cfg0.N then
      (Pipeline.accAt (reset3 m c) (step3 m c) (4 * run3Of (ix2 b o : S512x256.Idx)) 3 h') (loc3Of (ix2 b o : S512x256.Idx))
    else V m c (Pipeline.arrRef spec0 3) (ix2 b o)) = _
  rw [dif_pos (by rw [hrun]; exact h), hloc]
  exact congrFun (e _ _ _ h hrun) _

/-- THE KERNEL'S RESULT at (b, o): from zero, the four stretches of batch row b against the folded matrix's column o,
    added left to right, then the bias of o — all read from the staged arrays. -/
theorem result_at (c : Dev nD) (b : Fin 512) (o : Fin 256) :
    (G3 m c : S512x256.Idx → EReal) (ix2 b o)
      = ((((0 + ∑ q : Fin 8192, batchArr m c (ix2 b (Cert.Spmm.blk 0 q)) * foldedArr m c (ix2 (Cert.Spmm.blk 0 q) o))
            + ∑ q : Fin 8192, batchArr m c (ix2 b (Cert.Spmm.blk 1 q)) * foldedArr m c (ix2 (Cert.Spmm.blk 1 q) o))
            + ∑ q : Fin 8192, batchArr m c (ix2 b (Cert.Spmm.blk 2 q)) * foldedArr m c (ix2 (Cert.Spmm.blk 2 q) o))
            + ∑ q : Fin 8192, batchArr m c (ix2 b (Cert.Spmm.blk 3 q)) * foldedArr m c (ix2 (Cert.Spmm.blk 3 q) o))
          + biasArr m c (ix2 0 o) := by
  have hb := b.isLt
  have hN : cfg0.N = 8 := N_0
  have h : 4 * (b.val / 256) + 3 < cfg0.N := by rw [hN]; omega
  rw [G3_at m c b o h, run_at m c (b.val / 256) h, biasBlk_at,
    stretch_eq m c b o 0 _ rfl, stretch_eq m c b o 1 _ rfl, stretch_eq m c b o 2 _ rfl, stretch_eq m c b o 3 _ rfl]

end Cert.KernelIdeal.Fold

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KernelHost.lean ====
/-
  WHAT THE REGION FINDS IN THE THREE ARRAYS IT STAGES. Before the region the program reshapes the batch to
  [512, 32768], folds the sparse matrix into the dense weights by eighteen tensor operations, and reshapes the bias to a
  [1, 256] row. Read at an index these are: the batch at node `n` of row `b` (`staged_batch`); for node `n` and output
  `o` the sum, over the sparse entries whose column word names `n`, of the weight of the entry's row node at `o` times
  the entry's value (`staged_folded`, under the assumption that every index word names a node: a row word is then not
  wrapped and not clamped by the gather, a column word lands inside the scatter's operand); and the bias of output `o`
  (`staged_bias`).

  The folded matrix step by step: the transposed weights are gathered by rows at the row words (negative words would
  first have the extent added: none is negative), each gathered row is scaled by its entry's value, and the scaled rows
  are scatter-added into a zero matrix at the column words; the closing narrowing of the format is the identity on
  extended reals.
-/
import proofs.«409804_j63350767616783_3_alg».proof.Proof.Gen.KernelIdeal.Frame
import proofs.«409804_j63350767616783_3_alg».proof.Proof.Spec
import proofs.«409804_j63350767616783_3_alg».proof.Proof.LibGatherScatter
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

open Idealize.ShloMosaic.StableHlo.Predicate (ixP ij bcast_col1 bcast_rows)
open Idealize.ShloMosaic.RowOps

/-! ## Index words -/

/-- A word that reads signed as a non-negative number is not below zero in the signed order. -/
theorem slt_zero_of_nonneg (w : BitVec 32) (h : 0 ≤ w.toInt) : IntOp.cmpi .slt w 0#32 = 0#1 := by
  have hs : w.slt 0#32 = false := by
    rw [Bool.eq_false_iff]
    intro hh
    rw [BitVec.slt_iff_toInt_lt] at hh
    have h0 : (0#32 : BitVec 32).toInt = 0 := by decide
    omega
  show BitVec.ofBool (w.slt 0#32) = 0#1
  rw [hs]
  rfl

/-- The wrap of a negative index (add the extent when the word is below zero) leaves a non-negative word alone. -/
theorem wrap_of_nonneg (w : BitVec 32) (h : 0 ≤ w.toInt) :
    Scalar.select (IntOp.cmpi .slt w 0#32) (IntOp.addi w 32768#32) w = w := by
  rw [slt_zero_of_nonneg w h]
  exact select_zero _ _

/-- The two-way index of an [n × m] array written with either vocabulary. -/
theorem ij_eq_ix2 {n k : Nat} (p : Fin n) (q : Fin k) : ij p q = ix2 p q := by
  funext b
  match b with
  | ⟨0, _⟩ => rfl
  | ⟨1, _⟩ => rfl

section Folded

variable (A1 : S256x32768.Idx → EReal) (A3 : S202000.Idx → EReal) (A4 A5 : S202000.Idx → BitVec 32)

/-- The gather's start indices: the index words with the negative ones wrapped, as a column. -/
def rowIdx : IVec S202000x1 32 :=
  broadcastInDim S202000x1 ![0] bcast_S202000_S202000x1_0
    (select (cmpi .slt A4 (broadcastInDim S202000 ![] bcast_S_S202000 (constantI S_ 32 0#32)))
      (addi A4 (broadcastInDim S202000 ![] bcast_S_S202000 (constantI S_ 32 32768#32))) A4)

/-- The scatter's start indices: the index words as a column. -/
def colIdx : IVec S202000x1 32 := broadcastInDim S202000x1 ![0] bcast_S202000_S202000x1_0 A5

/-- The scatter's updates: the gathered weight rows times the entries' values. -/
def updates : S202000x256.Idx → EReal :=
  mulf (F := Ideal) (φ := .f32)
    (Host.gather gather_S32768x256_S202000x1_S202000x256_1_0_n_n_0_1_1256
      (transpose S32768x256 [1, 0] A1 transposes_S256x32768_S32768x256_1_0) (rowIdx A4))
    (broadcastInDim S202000x256 ![0, 1] bcast_S202000x1_S202000x256_0_1
      (broadcastInDim S202000x1 ![0] bcast_S202000_S202000x1_0 A3))

/-- The eighteen host operations composed: the folded matrix as the program computes it. -/
def foldedTerm : S32768x256.Idx → EReal :=
  truncf (F := Ideal) (φ := .f32) .bf16
    (Host.scatterAdd (F := Ideal) (φ := .f32) scatter_S32768x256_S202000x1_S202000x256_1_0_0_1
      (broadcastInDim S32768x256 ![] bcast_S_S32768x256 (constant (F := Ideal) S_ .f32 0x00000000#32))
      (colIdx A5) (updates A1 A3 A4))
    bitsLt_bf16_f32

/-- Row `e` of the gather's index column is entry `e`'s word, when no word is negative. -/
theorem rowIdx_at (hr : ∀ i, 0 ≤ (A4 i).toInt ∧ (A4 i).toInt < 32768) (e : Fin 202000) :
    rowIdx A4 (ixP e) = A4 (ix1 e) := by
  unfold rowIdx
  rw [bcast_col1, ofFin_eq_ix1]
  show Scalar.select (IntOp.cmpi .slt (A4 (ix1 e)) 0#32) (IntOp.addi (A4 (ix1 e)) 32768#32) (A4 (ix1 e)) = A4 (ix1 e)
  exact wrap_of_nonneg _ (hr (ix1 e)).1

/-- So the row the gather reads for entry `e` is the node its word names. -/
theorem clampRow_rowIdx (hr : ∀ i, 0 ≤ (A4 i).toInt ∧ (A4 i).toInt < 32768) (e : Fin 202000) :
    clampRow 32768 (by decide) (rowIdx A4) e = Cert.Spmm.nodeOf A4 e := by
  apply Fin.ext
  show min (rowIdx A4 (ixP e)).toInt.toNat (32768 - 1) = min (A4 (ix1 e)).toInt.toNat 32767
  rw [rowIdx_at A4 hr e]

/-- The gathered row of entry `e` at output `o`: the weight of the entry's row node. -/
theorem gathered_at (hr : ∀ i, 0 ≤ (A4 i).toInt ∧ (A4 i).toInt < 32768) (e : Fin 202000) (o : Fin 256) :
    Host.gather gather_S32768x256_S202000x1_S202000x256_1_0_n_n_0_1_1256
        (transpose S32768x256 [1, 0] A1 transposes_S256x32768_S32768x256_1_0) (rowIdx A4) (ix2 e o)
      = Cert.Spmm.Wt A1 (Cert.Spmm.nodeOf A4 e) o := by
  rw [gather_rows gather_S32768x256_S202000x1_S202000x256_1_0_n_n_0_1_1256 rfl rfl rfl rfl rfl rfl _ _ e o (by decide),
    clampRow_rowIdx A4 hr e]
  exact transpose_apply [1, 0] A1 transposes_S256x32768_S32768x256_1_0 (ix2 (Cert.Spmm.nodeOf A4 e) o)
    (ix2 o (Cert.Spmm.nodeOf A4 e)) (fun b => match b with
      | ⟨0, _⟩ => rfl
      | ⟨1, _⟩ => rfl)

/-- The values spread along the outputs read, at (e, o), entry `e`'s value. -/
theorem valsBcast_at (e : Fin 202000) (o : Fin 256) :
    broadcastInDim S202000x256 ![0, 1] bcast_S202000x1_S202000x256_0_1
        (broadcastInDim S202000x1 ![0] bcast_S202000_S202000x1_0 A3) (ix2 e o)
      = Cert.Spmm.vals A3 e := by
  rw [← ij_eq_ix2, bcast_rows, ofFin_eq_ix1]
  rfl

/-- An update element: the weight of the entry's row node times the entry's value. -/
theorem updates_at (hr : ∀ i, 0 ≤ (A4 i).toInt ∧ (A4 i).toInt < 32768) (e : Fin 202000) (o : Fin 256) :
    updates A1 A3 A4 (ix2 e o) = Cert.Spmm.Wt A1 (Cert.Spmm.nodeOf A4 e) o * Cert.Spmm.vals A3 e := by
  unfold updates
  rw [mulf_apply, gathered_at A1 A4 hr e o, valsBcast_at A3 e o]

/-- Entry `e` is added to node `n`'s row exactly when its column word names `n`. -/
theorem lands_colIdx_iff (hc : ∀ i, 0 ≤ (A5 i).toInt ∧ (A5 i).toInt < 32768) (e : Fin 202000) (n : Fin 32768) :
    lands (colIdx A5) e n.val ↔ Cert.Spmm.nodeOf A5 e = n := by
  unfold lands colIdx
  rw [bcast_col1, ofFin_eq_ix1]
  have h := hc (ix1 e)
  have hn := n.isLt
  constructor
  · intro hl
    apply Fin.ext
    show min (A5 (ix1 e)).toInt.toNat 32767 = n.val
    omega
  · intro hq
    have hv : min (A5 (ix1 e)).toInt.toNat 32767 = n.val := congrArg Fin.val hq
    omega

/-- The scatter's operand is zero everywhere. -/
theorem zeros_at (j : S32768x256.Idx) :
    broadcastInDim S32768x256 ![] bcast_S_S32768x256 (constant (F := Ideal) S_ .f32 0x00000000#32) j = (0 : EReal) := by
  show Ideal.ofBits .f32 0x00000000#32 = 0
  exact Ideal.ofBits_zero_f32

/-- THE FOLDED MATRIX AT (n, o): the sum over the entries whose column word names `n` of the weight of the entry's row
    node times the entry's value. -/
theorem foldedTerm_at (hr : ∀ i, 0 ≤ (A4 i).toInt ∧ (A4 i).toInt < 32768)
    (hc : ∀ i, 0 ≤ (A5 i).toInt ∧ (A5 i).toInt < 32768) (n : Fin 32768) (o : Fin 256) :
    foldedTerm A1 A3 A4 A5 (ix2 n o)
      = Cert.Spmm.folded (Cert.Spmm.Wt A1) (Cert.Spmm.vals A3) (Cert.Spmm.nodeOf A4) (Cert.Spmm.nodeOf A5) n o := by
  show Ideal.hostScatterAdd scatter_S32768x256_S202000x1_S202000x256_1_0_0_1
      (broadcastInDim S32768x256 ![] bcast_S_S32768x256 (constant (F := Ideal) S_ .f32 0x00000000#32))
      (colIdx A5) (updates A1 A3 A4) (ix2 n o) = _
  rw [scatterAdd_rows scatter_S32768x256_S202000x1_S202000x256_1_0_0_1 rfl rfl rfl rfl, zeros_at, zero_add]
  unfold Cert.Spmm.folded
  exact Finset.sum_congr (Finset.filter_congr fun e _ => lands_colIdx_iff A5 hc e n) (fun e _ => updates_at A1 A3 A4 hr e o)

end Folded

/-! ## The two reshapes -/

/-- The batch flattened to [512, 32768] reads, at (b, n), the input at node `n` of batch row `b`. -/
theorem batch_at (A0 : S512x8x64x64.Idx → EReal) (b : Fin 512) (n : Fin 32768) :
    shapeCast S512x32768 A0 shapeCasts_S512x8x64x64_S512x32768 (ix2 b n) = Cert.Spmm.X A0 b n := by
  refine shapeCast_apply A0 shapeCasts_S512x8x64x64_S512x32768 (ix2 b n) (Cert.Spmm.node b n) ?_
  rewrite [Shape.rowMajor_val_four, Shape.rowMajor_val_two]
  show ((b.val * 8 + n.val / 4096) * 64 + n.val / 64 % 64) * 64 + n.val % 64 = b.val * 32768 + n.val
  have := n.isLt
  omega

/-- The bias as a [1, 256] row reads, at (0, o), the bias of output `o`. -/
theorem bias_at (A2 : S256.Idx → EReal) (o : Fin 256) :
    shapeCast S1x256 A2 shapeCasts_S256_S1x256 (ix2 0 o) = Cert.Spmm.bias A2 o := by
  refine shapeCast_apply A2 shapeCasts_S256_S1x256 (ix2 0 o) (ix1 o) ?_
  rewrite [Shape.rowMajor_val_one, Shape.rowMajor_val_two]
  show o.val = 0 * 256 + o.val
  omega

/-! ## The three staged arrays -/

/-- THE BATCH the region stages: the input reshaped to [512, 32768], batch row `b` at node `n`. -/
theorem staged_batch (c : Dev nD) (b : Fin 512) (n : Fin 32768) :
    (V m c main_v0 : S512x32768.Idx → EReal) (ix2 b n) = Cert.Spmm.X (m ((c : Thread nD τ).loc main_arg0)) b n := by
  have e : (V m c main_v0 : S512x32768.Idx → EReal)
      = shapeCast S512x32768 (m ((c : Thread nD τ).loc main_arg0)) shapeCasts_S512x8x64x64_S512x32768 := by
    dsimp only [Gen.V]
    simp only [Gen.hostOps0, Gen.hostOps0_1, Gen.hostOps0_2, List.flatten_cons, List.flatten_nil, List.append_nil,
      List.cons_append, List.nil_append]
    after_results
    rfl
  rw [e]
  exact batch_at _ b n

set_option maxHeartbeats 4000000 in
/-- THE FOLDED MATRIX the region stages: the sparse matrix folded into the weights, node `n` at output `o`, when every
    index word names a node. -/
theorem staged_folded (c : Dev nD)
    (hr : ∀ i, 0 ≤ (m ((c : Thread nD τ).loc main_arg4) i).toInt ∧ (m ((c : Thread nD τ).loc main_arg4) i).toInt < 32768)
    (hc : ∀ i, 0 ≤ (m ((c : Thread nD τ).loc main_arg5) i).toInt ∧ (m ((c : Thread nD τ).loc main_arg5) i).toInt < 32768)
    (n : Fin 32768) (o : Fin 256) :
    (V m c main_v1 : S32768x256.Idx → EReal) (ix2 n o)
      = Cert.Spmm.folded (Cert.Spmm.Wt (m ((c : Thread nD τ).loc main_arg1))) (Cert.Spmm.vals (m ((c : Thread nD τ).loc main_arg3)))
          (Cert.Spmm.nodeOf (m ((c : Thread nD τ).loc main_arg4))) (Cert.Spmm.nodeOf (m ((c : Thread nD τ).loc main_arg5))) n o := by
  have e : (V m c main_v1 : S32768x256.Idx → EReal)
      = foldedTerm (m ((c : Thread nD τ).loc main_arg1)) (m ((c : Thread nD τ).loc main_arg3))
          (m ((c : Thread nD τ).loc main_arg4)) (m ((c : Thread nD τ).loc main_arg5)) := by
    dsimp only [Gen.V]
    simp only [Gen.hostOps0, Gen.hostOps0_1, Gen.hostOps0_2, List.flatten_cons, List.flatten_nil, List.append_nil,
      List.cons_append, List.nil_append]
    after_results
    rfl
  rw [e]
  exact foldedTerm_at _ _ _ _ hr hc n o

/-- THE BIAS the region stages: the bias as a [1, 256] row, output `o`. -/
theorem staged_bias (c : Dev nD) (o : Fin 256) :
    (V m c main_v2 : S1x256.Idx → EReal) (ix2 0 o) = Cert.Spmm.bias (m ((c : Thread nD τ).loc main_arg2)) o := by
  have e : (V m c main_v2 : S1x256.Idx → EReal)
      = shapeCast S1x256 (m ((c : Thread nD τ).loc main_arg2)) shapeCasts_S256_S1x256 := by
    dsimp only [Gen.V]
    simp only [Gen.hostOps0, Gen.hostOps0_1, Gen.hostOps0_2, List.flatten_cons, List.flatten_nil, List.append_nil,
      List.cons_append, List.nil_append]
    after_results
    rfl
  rw [e]
  exact bias_at _ o

end Cert.KernelIdeal.HostValue

end
-- ==== Proof.LibGatherCols.lean ====
/-
  COLUMNS READ. The companion of the row take: a host `stablehlo.gather` whose start indices are an [n × 1] column and
  whose operand's SECOND axis is collapsed and start-indexed reads, at result column `e`, the operand's column named by
  start index `e` read signed and clamped into the operand (`gather_cols` for a [B × N] operand).
-/
import proofs.«409804_j63350767616783_3_alg».proof.Proof.LibGatherScatter

namespace Idealize.ShloMosaic.RowOps

open Idealize.ShloMosaic Idealize.ShloMosaic.ValueIdx Idealize.ShloMosaic.StableHlo.Predicate

/-- Every element of a one-element list is that element. -/
theorem getElem_of_eq_singleton {β : Type} {l : List β} {b : β} (h : l = [b]) (k : Nat) (hk : k < l.length) :
    l[k] = b :=
  List.mem_singleton.1 (h ▸ List.getElem_mem hk)

/-- THE COLUMN TAKE. A `stablehlo.gather` of a [B × N] operand whose start indices are an [n × 1] column of column
    numbers: operand axis 1 collapsed and start-indexed, operand axis 0 whole (slice sizes [B, 1]) and read by the
    result's offset axis 0, no batching axes, the index vector on axis 1; the result's batch axis is its axis 1. Result
    element (b, e) is the operand's element (b, c), c the start index of row `e` read signed and clamped into
    [0, N − 1]. -/
theorem gather_cols {α : Type} {B N n w : Nat} (d : GatherDims ⟨2, ![B, N]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1) (hss : d.sliceSizes = ![B, 1])
    (x : (⟨2, ![B, N]⟩ : Shape).Idx → α) (idx : IVec ⟨2, ![n, 1]⟩ w) (b : Fin B) (e : Fin n) (hN : 0 < N) :
    Host.gather d x idx (ix2 b e) = x (ix2 b (clampRow N hN idx e)) := by
  have hb : ∀ a : Fin 2, a ∉ d.operandBatchingDims := fun a => by rw [hob]; exact List.not_mem_nil
  -- the result's batch axes: the one axis that is not the offset axis
  have hbd : d.batchDims = [1] := by
    show Shape.kept _ d.offsetDims = [1]
    rw [hoff]
    show (List.finRange 2).filter (fun a : Fin 2 => a ∉ [(0 : Fin 2)]) = [1]
    decide
  -- axis 1: collapsed and start-indexed, the clamped start alone
  have h1 : (d.operandIdx (ix2 b e) idx (1 : Fin 2)).val = (clampRow N hN idx e).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 b e) idx 1 + d.batchCoord (ix2 b e) 1 + d.offCoord (ix2 b e) 1 = min (idx (ixP e)).toInt.toNat (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ixP e)).toInt.toNat (N - 1)
    rw [hsl]
    congr 3
    congr 1
    funext c
    match c with
    | ⟨0, _⟩ =>
      unfold GatherDims.siIdx
      rw [dif_neg (by rw [hivd]; simp)]
      unfold GatherDims.siCoord
      apply Fin.ext
      simp only [Fin.val_cast]
      have he : ∀ X : Fin 2, X = 1 → ((ix2 b e : (⟨2, ![B, n]⟩ : Shape).Idx) X).val = e.val := fun X hX => by subst hX; rfl
      exact he _ (getElem_of_eq_singleton hbd _ _)
    | ⟨1, _⟩ =>
      unfold GatherDims.siIdx
      rw [dif_pos (by rw [hivd])]
      apply Fin.ext
      show List.idxOf (1 : Fin 2) d.startIndexMap = 0
      rw [hsim]; simp
  -- axis 0: neither start-indexed nor collapsed, the offset coordinate alone
  have h0 : (d.operandIdx (ix2 b e) idx (0 : Fin 2)).val = b.val := by
    have hk : (0 : Fin 2) ∈ d.sKept := by rw [GatherDims.mem_sKept, hcoll, hob]; simp
    have hm : (0 : Fin 2) ∉ d.startIndexMap := by rw [hsim]; simp
    show d.start (ix2 b e) idx 0 + d.batchCoord (ix2 b e) 0 + d.offCoord (ix2 b e) 0 = b.val
    rw [GatherDims.batchCoord_eq_zero _ _ _ (hb 0), Nat.add_zero]
    unfold GatherDims.start GatherDims.offCoord
    rw [dif_neg hm, dif_pos hk, Nat.zero_add]
    have hj : ∀ X : Fin 2, X = 0 → ((ix2 b e : (⟨2, ![B, n]⟩ : Shape).Idx) X).val = b.val := fun X hX => by subst hX; rfl
    exact hj _ (getElem_of_eq_singleton hoff _ _)
  unfold Host.gather
  congr 1
  funext a
  apply Fin.ext
  match a with
  | ⟨0, _⟩ => exact h0
  | ⟨1, _⟩ => exact h1

end Idealize.ShloMosaic.RowOps
-- ==== Proof.RefValue.lean ====
/-
  THE REFERENCE'S RESULT AT AN INDEX. The reference program gathers, for every sparse entry, the batch's column the
  entry's column index names, scales it by the entry's value, scatter-adds the scaled columns into the rows the entries'
  row indices name, and puts the result through the dense layer. Read one operation at a time, its output element
  (b, o) is the second formula of the specification: Σ over the nodes n of (Σ over the entries e in row n of
  X b (col e) · v e) · Wt n o, plus the bias of o.
-/
import proofs.«409804_j63350767616783_3_alg».proof.Proof.Gen.ReferenceIdeal.Read
import proofs.«409804_j63350767616783_3_alg».proof.Proof.Spec
import proofs.«409804_j63350767616783_3_alg».proof.Proof.LibGatherScatter
import proofs.«409804_j63350767616783_3_alg».proof.Proof.LibGatherCols

open scoped BigOperators

noncomputable section

namespace Cert.ReferenceIdeal.RefValue

open Cert.ReferenceIdeal Cert.ReferenceIdeal.Gen Idealize.ShloMosaic Idealize.ShloMosaic.ValueIdx
open Idealize.ShloMosaic.RowOps Idealize.ShloMosaic.StableHlo.Predicate

/-! ## The index words -/

/-- A word that reads signed as a non-negative number is not below zero: the wrap of a negative index is not taken. -/
theorem cmpi_slt_zero_of_nonneg (w : BitVec 32) (h : 0 ≤ w.toInt) : IntOp.cmpi .slt w 0#32 = 0#1 := by
  have hs : w.slt 0#32 = false := by
    rw [Bool.eq_false_iff]
    intro hlt
    rw [BitVec.slt_iff_toInt_lt] at hlt
    have h0 : (0#32 : BitVec 32).toInt = 0 := by decide
    omega
  show BitVec.ofBool (w.slt 0#32) = 0#1
  rw [hs]
  rfl

/-- The column indices after the negative-index wrap: in range, a column index is left as it is. -/
theorem v5_at (x5 : IVec S202000 32) (hc : ∀ i, 0 ≤ (x5 i).toInt ∧ (x5 i).toInt < 32768) (i : S202000.Idx) :
    Read.val_main_v5 (F := Ideal) x5 i = x5 i := by
  rw [Read.val_main_v5_apply, Read.val_main_v2_apply, Read.val_main_v1_apply, Read.val_main_c_apply,
    cmpi_slt_zero_of_nonneg _ (hc i).1, select_zero]

/-- Row `e` of the [202000 × 1] index column, as an index of the flat index array. -/
theorem idx_v6_ixP (e : Fin 202000) : Read.idx_main_v6 (ixP e) = ix1 e := by
  funext a
  match a with
  | ⟨0, _⟩ => rfl

theorem idx_v13_ixP (e : Fin 202000) : Read.idx_main_v13 (ixP e) = ix1 e := by
  funext a
  match a with
  | ⟨0, _⟩ => rfl

/-- The column the gather reads for entry `e`: the entry's column index read signed and clamped, the node the
    specification reads off the same word. -/
theorem clamp_v6 (x5 : IVec S202000 32) (hc : ∀ i, 0 ≤ (x5 i).toInt ∧ (x5 i).toInt < 32768) (e : Fin 202000)
    (hN : 0 < 32768) :
    clampRow 32768 hN (Read.val_main_v6 (F := Ideal) x5) e = Cert.Spmm.nodeOf x5 e := by
  apply Fin.ext
  show min (Read.val_main_v6 (F := Ideal) x5 (ixP e)).toInt.toNat (32768 - 1) = min (x5 (ix1 e)).toInt.toNat 32767
  rw [Read.val_main_v6_apply, v5_at x5 hc, idx_v6_ixP]

/-- An update row lands on node `n` exactly when the entry's row index, in range, names `n`. -/
theorem lands_v13_iff (x4 : IVec S202000 32) (hr : ∀ i, 0 ≤ (x4 i).toInt ∧ (x4 i).toInt < 32768) (e : Fin 202000)
    (n : Fin 32768) :
    lands (Read.val_main_v13 (F := Ideal) x4) e n.val ↔ Cert.Spmm.nodeOf x4 e = n := by
  unfold lands
  rw [Read.val_main_v13_apply, idx_v13_ixP]
  have h := hr (ix1 e)
  have hn := n.isLt
  constructor
  · intro heq
    apply Fin.ext
    show min (x4 (ix1 e)).toInt.toNat 32767 = n.val
    rw [heq, Int.toNat_natCast]
    omega
  · intro heq
    have hv : min (x4 (ix1 e)).toInt.toNat 32767 = n.val := congrArg Fin.val heq
    have hnat : ((x4 (ix1 e)).toInt.toNat : Int) = (x4 (ix1 e)).toInt := Int.toNat_of_nonneg h.1
    omega

/-! ## The reshape -/

/-- The flattened batch's element (b, c) is the input's element at node `c` of batch row `b`. -/
theorem idx_v0_node (b : Fin 512) (c : Fin 32768) : Read.idx_main_v0 (ix2 b c) = Cert.Spmm.node b c := by
  have hb := b.isLt
  have hc := c.isLt
  funext a
  match a with
  | ⟨0, _⟩ => apply Fin.ext; show (b.val * 32768 + c.val) / 32768 = b.val; omega
  | ⟨1, _⟩ => apply Fin.ext; show (b.val * 32768 + c.val) / 4096 % 8 = c.val / 4096; omega
  | ⟨2, _⟩ => apply Fin.ext; show (b.val * 32768 + c.val) / 64 % 64 = c.val / 64 % 64; omega
  | ⟨3, _⟩ => apply Fin.ext; show (b.val * 32768 + c.val) % 64 = c.val % 64; omega

/-! ## The operations, one at a time -/

section
variable (x0 : FVec Ideal S512x8x64x64 .f32) (x1 : FVec Ideal S256x32768 .f32) (x2 : FVec Ideal S256 .f32)
  (x3 : FVec Ideal S202000 .f32) (x4 x5 : IVec S202000 32)

/-- The gather: entry `e`'s column of the batch. -/
theorem v7_at (hc : ∀ i, 0 ≤ (x5 i).toInt ∧ (x5 i).toInt < 32768) (b : Fin 512) (e : Fin 202000) :
    Read.val_main_v7 (F := Ideal) x0 x5 (ix2 b e) = Cert.Spmm.X x0 b (Cert.Spmm.nodeOf x5 e) := by
  unfold Read.val_main_v7
  rw [gather_cols _ rfl rfl rfl rfl rfl rfl _ _ b e (by decide), clamp_v6 x5 hc, Read.val_main_v0_apply, idx_v0_node]
  rfl

/-- The entries' values spread over the batch rows. -/
theorem v9_at (b : Fin 512) (e : Fin 202000) :
    Read.val_main_v9 (F := Ideal) x3 (ix2 b e) = Cert.Spmm.vals x3 e := by
  rw [Read.val_main_v9_apply, Read.val_main_v8_apply]
  show x3 _ = x3 (ix1 e)
  congr 1
  funext a
  match a with
  | ⟨0, _⟩ => rfl

/-- The updates: entry `e`'s scaled column, transposed to entry by batch row. -/
theorem v11_at (hc : ∀ i, 0 ≤ (x5 i).toInt ∧ (x5 i).toInt < 32768) (e : Fin 202000) (b : Fin 512) :
    Read.val_main_v11 (F := Ideal) x0 x3 x5 (ix2 e b)
      = Cert.Spmm.X x0 b (Cert.Spmm.nodeOf x5 e) * Cert.Spmm.vals x3 e := by
  have hi : Read.idx_main_v11 (ix2 e b) = ix2 b e := by
    funext a
    match a with
    | ⟨0, _⟩ => rfl
    | ⟨1, _⟩ => rfl
  rw [Read.val_main_v11_apply, hi, Read.val_main_v10_apply, v7_at x0 x5 hc, v9_at x3]
  rfl

/-- The scatter's operand is the zero array. -/
theorem v12_at (i : S32768x512.Idx) : Read.val_main_v12 (F := Ideal) i = 0 := by
  rw [Read.val_main_v12_apply, Read.val_main_cst_apply, Ideal.ofBits_def, Ideal.ofBits_zero_f32]

/-- The scatter-add: node `n`, batch row `b` collects the scaled columns of the entries in row `n`. -/
theorem v14_at (hr : ∀ i, 0 ≤ (x4 i).toInt ∧ (x4 i).toInt < 32768) (hc : ∀ i, 0 ≤ (x5 i).toInt ∧ (x5 i).toInt < 32768)
    (n : Fin 32768) (b : Fin 512) :
    Read.val_main_v14 (F := Ideal) x0 x3 x4 x5 (ix2 n b)
      = Cert.Spmm.spread (Cert.Spmm.X x0) (Cert.Spmm.vals x3) (Cert.Spmm.nodeOf x4) (Cert.Spmm.nodeOf x5) b n := by
  unfold Read.val_main_v14
  show Ideal.hostScatterAdd scatter_S32768x512_S202000x1_S202000x512_1_0_0_1 (Read.val_main_v12 (F := Ideal))
    (Read.val_main_v13 (F := Ideal) x4) (Read.val_main_v11 (F := Ideal) x0 x3 x5) (ix2 n b) = _
  rw [scatterAdd_rows _ rfl rfl rfl rfl, v12_at, zero_add]
  unfold Cert.Spmm.spread
  refine Finset.sum_congr (Finset.filter_congr fun e _ => lands_v13_iff x4 hr e n) fun e _ => ?_
  exact v11_at x0 x3 x5 hc e b

/-- The scatter's result transposed back to batch row by node. -/
theorem v15_at (hr : ∀ i, 0 ≤ (x4 i).toInt ∧ (x4 i).toInt < 32768) (hc : ∀ i, 0 ≤ (x5 i).toInt ∧ (x5 i).toInt < 32768)
    (b : Fin 512) (n : Fin 32768) :
    Read.val_main_v15 (F := Ideal) x0 x3 x4 x5 (ix2 b n)
      = Cert.Spmm.spread (Cert.Spmm.X x0) (Cert.Spmm.vals x3) (Cert.Spmm.nodeOf x4) (Cert.Spmm.nodeOf x5) b n := by
  have hi : Read.idx_main_v15 (ix2 b n) = ix2 n b := by
    funext a
    match a with
    | ⟨0, _⟩ => rfl
    | ⟨1, _⟩ => rfl
  rw [Read.val_main_v15_apply, hi, v14_at x0 x3 x4 x5 hr hc]

/-- The weights transposed to node by output. -/
theorem v16_at (n : Fin 32768) (o : Fin 256) : Read.val_main_v16 (F := Ideal) x1 (ix2 n o) = Cert.Spmm.Wt x1 n o := by
  rw [Read.val_main_v16_apply]
  show x1 _ = x1 (ix2 o n)
  congr 1
  funext a
  match a with
  | ⟨0, _⟩ => rfl
  | ⟨1, _⟩ => rfl

/-- The bias spread over the batch rows. -/
theorem v19_at (b : Fin 512) (o : Fin 256) : Read.val_main_v19 (F := Ideal) x2 (ix2 b o) = Cert.Spmm.bias x2 o := by
  rw [Read.val_main_v19_apply, Read.val_main_v18_apply]
  show x2 _ = x2 (ix1 o)
  congr 1
  funext a
  match a with
  | ⟨0, _⟩ => rfl

end

/-! ## The result -/

/-- The reference's output element (b, o) is the specification's spread-first formula. -/
theorem reference_at (x0 : FVec Ideal S512x8x64x64 .f32) (x1 : FVec Ideal S256x32768 .f32) (x2 : FVec Ideal S256 .f32)
    (x3 : FVec Ideal S202000 .f32) (x4 x5 : IVec S202000 32)
    (hr : ∀ i, 0 ≤ (x4 i).toInt ∧ (x4 i).toInt < 32768) (hc : ∀ i, 0 ≤ (x5 i).toInt ∧ (x5 i).toInt < 32768)
    (b : Fin 512) (o : Fin 256) :
    Cert.ReferenceIdeal.Read.val_main_v20 (F := Ideal) x0 x1 x2 x3 x4 x5 (ix2 b o)
      = Cert.Spmm.referenceForm (Cert.Spmm.X x0) (Cert.Spmm.Wt x1) (Cert.Spmm.bias x2) (Cert.Spmm.vals x3)
          (Cert.Spmm.nodeOf x4) (Cert.Spmm.nodeOf x5) b o := by
  have hl : ∀ k : Fin 32768, Read.lidx_main_v17 (ix2 b o) k = ix2 b k := fun k => by
    funext a
    match a with
    | ⟨0, _⟩ => rfl
    | ⟨1, _⟩ => rfl
  have hrx : ∀ k : Fin 32768, Read.ridx_main_v17 (ix2 b o) k = ix2 k o := fun k => by
    funext a
    match a with
    | ⟨0, _⟩ => rfl
    | ⟨1, _⟩ => rfl
  have hsum : (∑ k : Fin 32768, Read.val_main_v15 (F := Ideal) x0 x3 x4 x5 (Read.lidx_main_v17 (ix2 b o) k)
        * Read.val_main_v16 (F := Ideal) x1 (Read.ridx_main_v17 (ix2 b o) k))
      = ∑ n : Fin 32768, Cert.Spmm.spread (Cert.Spmm.X x0) (Cert.Spmm.vals x3) (Cert.Spmm.nodeOf x4)
          (Cert.Spmm.nodeOf x5) b n * Cert.Spmm.Wt x1 n o :=
    Finset.sum_congr rfl fun k _ => by rw [hl k, hrx k, v15_at x0 x3 x4 x5 hr hc, v16_at x1]
  rw [Read.val_main_v20_apply, Read.val_main_v17_apply, v19_at x2 b o, Ideal.addf_def, hsum]
  rfl

end Cert.ReferenceIdeal.RefValue

end
-- ==== Proof.LibEReal.lean ====
/-
  Extended reals that are real numbers: sums, maxima and the corner-case operations (exponential, square root,
  quotient) of real numbers stay real, and the float patterns for −∞, 0 and 2 are what they say.
-/
import Idealize.ShloMosaic.PureOps.Ideal
import Idealize.ShloMosaic.PureOps.Ideal.Laws

noncomputable section

open scoped BigOperators

namespace Cert.LibEReal

open Idealize.ShloMosaic

/-- A finite sum of real numbers, taken among the extended reals, is the real sum. -/
theorem coe_sum {ι : Type} (s : Finset ι) (f : ι → ℝ) :
    (∑ i ∈ s, ((f i : ℝ) : EReal)) = ((∑ i ∈ s, f i : ℝ) : EReal) := by
  classical
  -- by induction on the index set: the embedding of ℝ respects 0 and binary sums
  induction s using Finset.induction_on with
  | empty => simp
  | insert a s ha ih => rw [Finset.sum_insert ha, Finset.sum_insert ha, ih, EReal.coe_add]

/-- The maximum of two real numbers among the extended reals is the real maximum. -/
theorem max_coe (a b : ℝ) : max ((a : ℝ) : EReal) ((b : ℝ) : EReal) = ((max a b : ℝ) : EReal) := by
  -- the embedding of ℝ is monotone, and a monotone map commutes with binary maxima
  exact (EReal.coe_strictMono.monotone.map_max (a := a) (b := b)).symm

/-- Folding `max` over a nonempty finite family of reals from a real start is the real maximum of the start and the
    family's largest member. -/
theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by
  -- two inequalities: the fold is the least upper bound of the start and the members
  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  · -- the real maximum is attained, either at the start or at some member
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

/-- Folding `max` over a nonempty finite family of reals from −∞ is the family's largest member. -/
theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by
  -- two inequalities again; −∞ is below everything, and the largest member is attained
  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

/-- The f32 pattern `0xFF800000` is −∞. -/
theorem ofBits_neg_inf : Ideal.ofBits .f32 0xFF800000#32 = (⊥ : EReal) := by
  -- sign bit set, exponent field all ones, fraction field zero
  simp [Ideal.ofBits, Ideal.ieee]

/-- The f32 pattern `0x40000000` is 2. -/
theorem ofBits_two : Ideal.ofBits .f32 0x40000000#32 = ((2 : ℝ) : EReal) := by
  -- sign bit clear, exponent field 128, fraction field zero: 2^23 · 2^(128 − 127 − 23) = 2
  simp [Ideal.ofBits, Ideal.ieee]
  rw [← EReal.coe_mul, EReal.coe_eq_coe_iff]
  norm_num

/-- The exponential of a real number. -/
theorem exp_coe (r : ℝ) : Ideal.exp ((r : ℝ) : EReal) = ((Real.exp r : ℝ) : EReal) := by
  exact Ideal.exp_coe r

/-- The exponential of −∞ is 0. -/
theorem exp_bot : Ideal.exp (⊥ : EReal) = 0 := by
  exact Ideal.exp_bot

/-- The square root of a nonnegative real number. -/
theorem sqrt_coe {r : ℝ} (h : 0 ≤ r) : Ideal.sqrt ((r : ℝ) : EReal) = ((Real.sqrt r : ℝ) : EReal) := by
  -- the negative branch of the definition is excluded by the hypothesis
  rw [Ideal.sqrt_coe, if_neg (not_lt.2 h)]

/-- The quotient of a real number by a nonzero real number. -/
theorem div_coe_coe (a : ℝ) {b : ℝ} (h : b ≠ 0) :
    Ideal.div ((a : ℝ) : EReal) ((b : ℝ) : EReal) = ((a / b : ℝ) : EReal) := by
  -- off zero the quotient is the product with the reciprocal, and a product of reals is real
  rw [Ideal.div_coe h, ← EReal.coe_mul, mul_one_div]

end Cert.LibEReal

end
-- ==== Proof.Algebra.lean ====
/-
  THE ALGEBRAIC LAW JOINING THE TWO FORMULAS. With every factor a real number, folding the sparse matrix into the
  weights first and spreading the batch through it first give the same number,
  Σ_e X b (col e) · v e · Wt (row e) o + β o.
  Three steps: (1) among the reals, a sum over classes of a factor times the sum over the class is the sum over all
  entries (sum over the fibres of a map); (2) the four stretches of 8192 nodes together list every node once, which
  holds in any commutative additive monoid and so among the extended reals directly; (3) the factors being real, the
  extended-real sums are embeddings of real sums, where (1) applies on both sides. The bias is a common summand and needs
  no finiteness.
-/
import proofs.«409804_j63350767616783_3_alg».proof.Proof.Spec
import proofs.«409804_j63350767616783_3_alg».proof.Proof.LibEReal
import Mathlib.Algebra.BigOperators.Group.Finset.Basic
import Mathlib.Algebra.BigOperators.Ring.Finset
import Mathlib.Algebra.BigOperators.Fin
import Mathlib.Data.Fintype.BigOperators
import Mathlib.Data.EReal.Basic
import Mathlib.Tactic.Ring

open scoped BigOperators

noncomputable section

namespace Cert.Spmm

/-! ## Sums over the fibres of a map, among the reals -/

/-- A factor depending on the class, times the sum over the class, summed over all classes: every entry is counted once,
    with the factor of its own class. -/
theorem sum_mul_fibre {E N : Type} [Fintype E] [Fintype N] [DecidableEq N] (f : E → N) (g : N → ℝ) (h : E → ℝ) :
    ∑ n, g n * ∑ e ∈ Finset.univ.filter (fun e => f e = n), h e = ∑ e, g (f e) * h e := by
  -- split the right side by the class of each entry, then compare class by class
  rw [← Finset.sum_fiberwise Finset.univ f (fun e => g (f e) * h e)]
  refine Finset.sum_congr rfl fun n _ => ?_
  rw [Finset.mul_sum]
  refine Finset.sum_congr rfl fun e he => ?_
  -- inside the class of n the factor g (f e) is g n
  rw [(Finset.mem_filter.mp he).2]

/-- The same with the factor on the right. -/
theorem sum_fibre_mul {E N : Type} [Fintype E] [Fintype N] [DecidableEq N] (f : E → N) (g : N → ℝ) (h : E → ℝ) :
    ∑ n, (∑ e ∈ Finset.univ.filter (fun e => f e = n), h e) * g n = ∑ e, h e * g (f e) := by
  calc ∑ n, (∑ e ∈ Finset.univ.filter (fun e => f e = n), h e) * g n
      = ∑ n, g n * ∑ e ∈ Finset.univ.filter (fun e => f e = n), h e :=
        Finset.sum_congr rfl fun n _ => mul_comm _ _
    _ = ∑ e, g (f e) * h e := sum_mul_fibre f g h
    _ = ∑ e, h e * g (f e) := Finset.sum_congr rfl fun e _ => mul_comm _ _

/-! ## The four stretches list every node once -/

/-- Stretch number and place in the stretch determine the node, and every node has them: quotient and remainder by
    8192. -/
theorem blk_bijective : Function.Bijective (fun p : Fin 4 × Fin 8192 => blk p.1 p.2) := by
  constructor
  · rintro ⟨j, q⟩ ⟨j', q'⟩ h
    have hj := j.isLt; have hj' := j'.isLt; have hq := q.isLt; have hq' := q'.isLt
    have h' : j.val * 8192 + q.val = j'.val * 8192 + q'.val := by
      simpa [blk] using congrArg Fin.val h
    have h1 : j.val = j'.val := by omega
    have h2 : q.val = q'.val := by omega
    exact Prod.ext (Fin.ext h1) (Fin.ext h2)
  · intro c
    have hc := c.isLt
    refine ⟨(⟨c.val / 8192, by omega⟩, ⟨c.val % 8192, by omega⟩), ?_⟩
    apply Fin.ext
    show c.val / 8192 * 8192 + c.val % 8192 = c.val
    omega

/-- Summing a function of the node over the four stretches, left to right, is summing it over all nodes. -/
theorem sum_blk {M : Type} [AddCommMonoid M] (F : Fin 32768 → M) :
    (((∑ q : Fin 8192, F (blk 0 q)) + ∑ q : Fin 8192, F (blk 1 q)) + ∑ q : Fin 8192, F (blk 2 q))
        + ∑ q : Fin 8192, F (blk 3 q) = ∑ c, F c := by
  rw [← Fintype.sum_bijective (fun p : Fin 4 × Fin 8192 => blk p.1 p.2) blk_bijective
        (fun p => F (blk p.1 p.2)) F (fun _ => rfl)]
  rw [Fintype.sum_prod_type, Fin.sum_univ_four]

/-! ## The law -/

/-- The law among the reals: both orders of summation give Σ_e x (col e) · u e · w (row e). -/
theorem real_law {E N : Type} [Fintype E] [Fintype N] [DecidableEq N] (row col : E → N) (x w : N → ℝ) (u : E → ℝ) :
    ∑ c, x c * ∑ e ∈ Finset.univ.filter (fun e => col e = c), w (row e) * u e
      = ∑ n, (∑ e ∈ Finset.univ.filter (fun e => row e = n), x (col e) * u e) * w n := by
  rw [sum_mul_fibre col x (fun e => w (row e) * u e), sum_fibre_mul row w (fun e => x (col e) * u e)]
  exact Finset.sum_congr rfl fun e _ => by ring

theorem kernelForm_eq_referenceForm (X : Fin 512 → Fin 32768 → EReal) (Wt : Fin 32768 → Fin 256 → EReal) (β : Fin 256 → EReal)
    (v : Fin 202000 → EReal) (row col : Fin 202000 → Fin 32768)
    (hX : ∀ b c, ∃ r : ℝ, X b c = (r : EReal)) (hW : ∀ n o, ∃ r : ℝ, Wt n o = (r : EReal)) (hv : ∀ e, ∃ r : ℝ, v e = (r : EReal))
    (b : Fin 512) (o : Fin 256) :
    kernelForm X Wt β v row col b o = referenceForm X Wt β v row col b o := by
  -- real witnesses for every factor
  choose x hx using hX
  choose w hw using hW
  choose u hu using hv
  obtain rfl : X = fun b c => ((x b c : ℝ) : EReal) := funext fun b => funext fun c => hx b c
  obtain rfl : Wt = fun n o => ((w n o : ℝ) : EReal) := funext fun n => funext fun o => hw n o
  obtain rfl : v = fun e => ((u e : ℝ) : EReal) := funext fun e => hu e
  unfold kernelForm referenceForm
  -- the bias is a common summand
  refine congrArg (· + β o) ?_
  -- the four stretches together are all the nodes
  unfold part
  rw [sum_blk (fun c => ((x b c : ℝ) : EReal) * folded (fun n o => ((w n o : ℝ) : EReal)) (fun e => ((u e : ℝ) : EReal)) row col c o)]
  -- both sides are embeddings of real sums
  unfold folded spread
  simp only [← EReal.coe_mul, Cert.LibEReal.coe_sum]
  exact congrArg _ (real_law row col (x b) (fun n => w n o) u)

end Cert.Spmm

end
-- ==== Proof.PreFacts.lean ====
/-
  THE PRECONDITION READ BACK. The printed precondition is a conjunction of eight `all`s, one per test: each of the four
  float arguments has |x| < +∞ at every element, and each of the two index arguments has 0 ≤ w and w < 32768 (signed)
  at every element. Each `all` is a reduction by `and` from 1 into a result of one index, so when the whole is 1 every
  element of every tested array is 1. What an element being 1 says:
    • for a float, read as an extended real: max x (-x) < ⊤, which rules out both infinities (each has max x (-x) = ⊤),
      so x is a real number;
    • for an index word: the signed comparison against the constant holds of the words read as integers.
  Only the facts used later are kept: the batch, the weights and the entry values are real, and both index arguments
  lie in [0, 32768).
-/
import proofs.«409804_j63350767616783_3_alg».proof.Pre_finite_inputs
import Idealize.ShloMosaic.PureOps.Ideal
import Idealize.ShloMosaic.Lib.ReduceAll
import Idealize.ShloMosaic.Lib.StableHlo.Predicate
import Idealize.ShloMosaic.Lib.ValueIdx
import Mathlib.Data.EReal.Basic

noncomputable section

namespace Cert.Spmm

open Idealize.ShloMosaic Idealize.ShloMosaic.ValueIdx Cert.Pre_finite_inputs

/-- The rank-0 shape has exactly one index. -/
instance : Subsingleton S_.Idx := ⟨fun a b => funext fun d => d.elim0⟩

/-- A boolean as a one-bit word is 1 exactly when it is true. -/
theorem ofBool_eq_one {b : Bool} : BitVec.ofBool b = 1#1 ↔ b = true := by cases b <;> decide

/-- An extended real whose absolute value max x (-x) is below ⊤ is a real number: at ⊥ and at ⊤ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, mantissa 0) denotes +∞. -/
theorem inf_pattern : Ideal.ofBits .f32 0x7F800000#32 = (⊤ : EReal) := by simp [Ideal.ofBits, Ideal.ieee]

/-- A float array all of whose elements pass |x| < +∞ is real-valued. -/
theorem real_of_all {s : Shape} {axes : List (Fin s.rank)} (hb : S_.BroadcastsInDim s (![] : Fin 0 → Fin s.rank))
    (hr : s.ReducesTo axes S_) (h0 : 0 < S_.numel) (x : FVec Ideal s .f32)
    (h : Host.reduce IntOp.andi (cmpf .olt (Host.absf x) (broadcastInDim s ![] hb (constant (F := Ideal) S_ .f32 0x7F800000#32)))
          (constantI S_ 1 1#1) hr h0 ix0 = 1#1) (i : s.Idx) : ∃ r : ℝ, x i = (r : EReal) := by
  -- element i of the compared array is 1; the broadcast constant reads the scalar everywhere
  have e := Host.reduce_andi_all _ _ hr h0 ix0 h i
  rw [cmpf, StableHlo.Predicate.bcast_scalar hb h0] at e
  simp only [Host.absf, constant] at e
  -- on extended reals: |x| is max x (-x), the compare is the order's <, and the constant is ⊤
  change Ideal.cmp .olt (max (x i) (-(x i))) (Ideal.ofBits .f32 0x7F800000#32) = 1#1 at e
  rw [inf_pattern, Ideal.cmp, ofBool_eq_one, decide_eq_true_eq] at e
  exact real_of_abs_lt_top _ e

/-- An index array all of whose elements pass w ≥ c (signed) has every word, read as an integer, at least c. -/
theorem ge_of_all {s : Shape} {axes : List (Fin s.rank)} (hb : S_.BroadcastsInDim s (![] : Fin 0 → Fin s.rank))
    (hr : s.ReducesTo axes S_) (h0 : 0 < S_.numel) (x : IVec s 32) (c : BitVec 32)
    (h : Host.reduce IntOp.andi (cmpi .sge x (broadcastInDim s ![] hb (constantI S_ 32 c))) (constantI S_ 1 1#1) hr h0 ix0 = 1#1)
    (i : s.Idx) : c.toInt ≤ (x i).toInt := by
  have e := Host.reduce_andi_all _ _ hr h0 ix0 h i
  rw [cmpi, StableHlo.Predicate.bcast_scalar hb h0] at e
  exact IntOp.cmpi_sge.1 e

/-- An index array all of whose elements pass w < c (signed) has every word, read as an integer, below c. -/
theorem lt_of_all {s : Shape} {axes : List (Fin s.rank)} (hb : S_.BroadcastsInDim s (![] : Fin 0 → Fin s.rank))
    (hr : s.ReducesTo axes S_) (h0 : 0 < S_.numel) (x : IVec s 32) (c : BitVec 32)
    (h : Host.reduce IntOp.andi (cmpi .slt x (broadcastInDim s ![] hb (constantI S_ 32 c))) (constantI S_ 1 1#1) hr h0 ix0 = 1#1)
    (i : s.Idx) : (x i).toInt < c.toInt := by
  have e := Host.reduce_andi_all _ _ hr h0 ix0 h i
  rw [cmpi, StableHlo.Predicate.bcast_scalar hb h0] at e
  exact IntOp.cmpi_slt.1 e

/-- THE PRECONDITION DECODED: the batch, the weights and the entry values are real numbers, and every word of either
    index argument lies in [0, 32768). (The bias is tested too; its fact is not needed.) -/
theorem of_pre [Cert.Pre_finite_inputs.Facts] (x0 : FVec Ideal S512x8x64x64 .f32) (x1 : FVec Ideal S256x32768 .f32) (x2 : FVec Ideal S256 .f32)
    (x3 : FVec Ideal S202000 .f32) (x4 x5 : IVec S202000 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x3 i = (r : EReal))
      ∧ (∀ i, 0 ≤ (x4 i).toInt ∧ (x4 i).toInt < 32768) ∧ (∀ i, 0 ≤ (x5 i).toInt ∧ (x5 i).toInt < 32768) := by
  -- the result at its one index, as the eight tests joined by `and`, the last test outermost
  have e := congrFun h ix0
  dsimp only [fn, fn_part1, fn_part2] at e
  simp only [andi, IntOp.andi_eq_one] at e
  obtain ⟨⟨⟨⟨⟨⟨⟨h0, h1⟩, -⟩, h3⟩, h4a⟩, h4b⟩, h5a⟩, h5b⟩ := e
  -- the two constants the index words are compared with, read signed
  have z0 : (0#32 : BitVec 32).toInt = 0 := by decide
  have zN : (32768#32 : BitVec 32).toInt = 32768 := by decide
  refine ⟨real_of_all _ _ _ x0 h0, real_of_all _ _ _ x1 h1, real_of_all _ _ _ x3 h3,
    fun i => ⟨?_, ?_⟩, fun i => ⟨?_, ?_⟩⟩
  · have := ge_of_all _ _ _ x4 _ h4a i; rwa [z0] at this
  · have := lt_of_all _ _ _ x4 _ h4b i; rwa [zN] at this
  · have := ge_of_all _ _ _ x5 _ h5a i; rwa [z0] at this
  · have := lt_of_all _ _ _ x5 _ h5b i; rwa [zN] at this

end Cert.Spmm

end
-- ==== Proof.lean ====
/-
  A SPARSE ADJACENCY FOLLOWED BY A DENSE LAYER, IN TWO ORDERS. The reference applies the sparse matrix (coordinate form:
  entry e has value v e at row (e), col (e), duplicates adding up) to every batch row and then the dense layer:
      out[b, o] = Σ_n (Σ_{e : row e = n} x[b, col e] · v e) · W[o, n] + bias[o].
  The kernel folds the sparse matrix into the weights once, M[c, o] = Σ_{e : col e = c} W[o, row e] · v e, and then
  multiplies the batch by M on the matrix unit, the 32768 nodes cut into four stretches of 8192 accumulated over a grid
  axis, the bias added at the last stretch:
      out[b, o] = Σ_c x[b, c] · M[c, o] + bias[o].
  At the ideal values the change to bfloat16 is the identity, so both are Σ_e x[b, col e] · v e · W[o, row e] + bias[o]:
  distribute each product over the inner sum and sum over the fibres of col, resp. of row. Distributing over a sum needs
  every factor to be a real number — that is where the finiteness of the inputs is used — and each side reads a row or
  column index once through a clamping gather and once through a scatter that drops what is out of range, in opposite
  roles, so the two agree exactly where both index arrays lie in [0, 32768): the precondition says both.
  The pieces: the kernel's result array as a four-step fold over its grid points is the generated value leg; that fold
  read at an index over the staged arrays is Proof/KernelFold.lean (over the body's arithmetic in
  Proof/KernelPayload.lean); what the host operations stage is Proof/KernelHost.lean; the reference read at an index is
  Proof/RefValue.lean over its generated run; the algebraic law is Proof/Algebra.lean; the precondition decoded is
  Proof/PreFacts.lean.
-/
import proofs.«409804_j63350767616783_3_alg».proof.Defs
import proofs.«409804_j63350767616783_3_alg».proof.Proof.Gen.Kernel.Frame
import proofs.«409804_j63350767616783_3_alg».proof.Proof.Gen.KernelIdeal.Value
import proofs.«409804_j63350767616783_3_alg».proof.Proof.Gen.Pre_finite_inputs
import proofs.«409804_j63350767616783_3_alg».proof.Proof.Gen.ReferenceIdeal.Run
import proofs.«409804_j63350767616783_3_alg».proof.Proof.Gen.ReferenceIdeal.Read
import proofs.«409804_j63350767616783_3_alg».proof.Proof.KernelFold
import proofs.«409804_j63350767616783_3_alg».proof.Proof.KernelHost
import proofs.«409804_j63350767616783_3_alg».proof.Proof.RefValue
import proofs.«409804_j63350767616783_3_alg».proof.Proof.Algebra
import proofs.«409804_j63350767616783_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- THE KERNEL'S RESULT at (b, o) is the fold-first formula of the arguments: the four stretch sums of batch row b
    against column o of the folded matrix, then the bias — the staged arrays being the flattened batch, the folded
    matrix (where both index arguments are in range) and the bias row. -/
theorem kernel_at (m : (ℓ : Loc Cert.KernelIdeal.nD Cert.KernelIdeal.τ Cert.KernelIdeal.sig) → Buf (Elt Ideal) ℓ)
    (c : Dev Cert.KernelIdeal.nD)
    (hr : ∀ i, 0 ≤ (m ((c : Thread Cert.KernelIdeal.nD Cert.KernelIdeal.τ).loc Cert.KernelIdeal.main_arg4) i).toInt
      ∧ (m ((c : Thread Cert.KernelIdeal.nD Cert.KernelIdeal.τ).loc Cert.KernelIdeal.main_arg4) i).toInt < 32768)
    (hc : ∀ i, 0 ≤ (m ((c : Thread Cert.KernelIdeal.nD Cert.KernelIdeal.τ).loc Cert.KernelIdeal.main_arg5) i).toInt
      ∧ (m ((c : Thread Cert.KernelIdeal.nD Cert.KernelIdeal.τ).loc Cert.KernelIdeal.main_arg5) i).toInt < 32768)
    (b : Fin 512) (o : Fin 256) :
    (Cert.KernelIdeal.Value.G3 m c : Cert.KernelIdeal.S512x256.Idx → EReal) (ix2 b o)
      = Cert.Spmm.kernelForm (Cert.Spmm.X (m ((c : Thread Cert.KernelIdeal.nD Cert.KernelIdeal.τ).loc Cert.KernelIdeal.main_arg0)))
          (Cert.Spmm.Wt (m ((c : Thread Cert.KernelIdeal.nD Cert.KernelIdeal.τ).loc Cert.KernelIdeal.main_arg1)))
          (Cert.Spmm.bias (m ((c : Thread Cert.KernelIdeal.nD Cert.KernelIdeal.τ).loc Cert.KernelIdeal.main_arg2)))
          (Cert.Spmm.vals (m ((c : Thread Cert.KernelIdeal.nD Cert.KernelIdeal.τ).loc Cert.KernelIdeal.main_arg3)))
          (Cert.Spmm.nodeOf (m ((c : Thread Cert.KernelIdeal.nD Cert.KernelIdeal.τ).loc Cert.KernelIdeal.main_arg4)))
          (Cert.Spmm.nodeOf (m ((c : Thread Cert.KernelIdeal.nD Cert.KernelIdeal.τ).loc Cert.KernelIdeal.main_arg5))) b o := by
  rw [Cert.KernelIdeal.Fold.result_at]
  unfold Cert.Spmm.kernelForm Cert.Spmm.part
  simp only [Cert.KernelIdeal.HostValue.staged_batch m c, Cert.KernelIdeal.HostValue.staged_folded m c hr hc,
    Cert.KernelIdeal.HostValue.staged_bias m c, zero_add]

/-- From memories agreeing on the arguments the two idealized programs end with equal results: element (b, o) of the
    kernel's is the fold-first formula, of the reference's the spread-first formula, and with the batch, the weights and
    the entry values real numbers the two formulas are one number. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v20_eq]
  simp only [hagree c]
  obtain ⟨hx0, hx1, hx3, hr, hc⟩ := Cert.Spmm.of_pre _ _ _ _ _ _ (hpre c)
  funext i
  obtain ⟨b, o, rfl⟩ : ∃ (b : Fin 512) (o : Fin 256), i = ix2 b o := ⟨i 0, i 1, eq_ix2 i⟩
  rw [Cert.ReferenceIdeal.RefValue.reference_at _ _ _ _ _ _ hr hc b o]
  refine Eq.trans ?_ (kernel_at m c hr hc b o).symm
  exact (Cert.Spmm.kernelForm_eq_referenceForm _ _ _ _ _ _ (fun b c => hx0 _) (fun n o => hx1 _) (fun e => hx3 _) b o).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
